-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x50x32 : Shape := ⟨3, ![64, 50, 32]⟩
abbrev S_ : Shape := ⟨0, ![]⟩

class Facts : Prop where
  bcast_S_S64x50x32 : S_.BroadcastsInDim S64x50x32 (![] : Fin 0 → Fin S64x50x32.rank)
  reducesTo_S64x50x32_S_d0_1_2 : S64x50x32.ReducesTo [0, 1, 2] S_
  h_S_ : 0 < S_.numel

variable [Facts]

def fn {F : FTy → Type} [FloatOps F] (main_arg0 : FVec F S64x50x32 .f32) (main_arg1 : FVec F S64x50x32 .f32) (main_arg2 : FVec F S64x50x32 .f32) : IVec S_ 1 :=
  let main_v0 : FVec F S64x50x32 .f32 := Host.absf main_arg0
  let main_cst : FVec F S_ .f32 := constant S_ .f32 0x7F800000#32
  let main_v1 : FVec F S64x50x32 .f32 := broadcastInDim S64x50x32 ![] bcast_S_S64x50x32 main_cst
  let main_v2 : IVec S64x50x32 1 := cmpf .olt main_v0 main_v1
  let main_c : IVec S_ 1 := constantI S_ 1 1#1
  let main_v3 : IVec S_ 1 := (fun x v => Host.reduce IntOp.andi x v reducesTo_S64x50x32_S_d0_1_2 h_S_) main_v2 main_c
  let main_v4 : FVec F S64x50x32 .f32 := Host.absf main_arg1
  let main_cst_0 : FVec F S_ .f32 := constant S_ .f32 0x7F800000#32
  let main_v5 : FVec F S64x50x32 .f32 := broadcastInDim S64x50x32 ![] bcast_S_S64x50x32 main_cst_0
  let main_v6 : IVec S64x50x32 1 := cmpf .olt main_v4 main_v5
  let main_c_1 : IVec S_ 1 := constantI S_ 1 1#1
  let main_v7 : IVec S_ 1 := (fun x v => Host.reduce IntOp.andi x v reducesTo_S64x50x32_S_d0_1_2 h_S_) main_v6 main_c_1
  let main_v8 : IVec S_ 1 := andi main_v3 main_v7
  let main_v9 : FVec F S64x50x32 .f32 := Host.absf main_arg2
  let main_cst_2 : FVec F S_ .f32 := constant S_ .f32 0x7F800000#32
  let main_v10 : FVec F S64x50x32 .f32 := broadcastInDim S64x50x32 ![] bcast_S_S64x50x32 main_cst_2
  let main_v11 : IVec S64x50x32 1 := cmpf .olt main_v9 main_v10
  let main_c_3 : IVec S_ 1 := constantI S_ 1 1#1
  let main_v12 : IVec S_ 1 := (fun x v => Host.reduce IntOp.andi x v reducesTo_S64x50x32_S_d0_1_2 h_S_) main_v11 main_c_3
  let main_v13 : IVec S_ 1 := andi main_v8 main_v12
  main_v13
-- ==== Kernel.lean ====
abbrev S64x50x32 : Shape := ⟨3, ![64, 50, 32]⟩
abbrev S_ : Shape := ⟨0, ![]⟩
abbrev S64x50x1 : Shape := ⟨3, ![64, 50, 1]⟩
abbrev S64x50x33 : Shape := ⟨3, ![64, 50, 33]⟩
abbrev S3200x33 : Shape := ⟨2, ![3200, 33]⟩
abbrev S3200x35937 : Shape := ⟨2, ![3200, 35937]⟩
abbrev S128x33 : Shape := ⟨2, ![128, 33]⟩
abbrev S128x35937 : Shape := ⟨2, ![128, 35937]⟩
abbrev S128x33x1 : Shape := ⟨3, ![128, 33, 1]⟩
abbrev S128x1x33 : Shape := ⟨3, ![128, 1, 33]⟩
abbrev S128x33x33 : Shape := ⟨3, ![128, 33, 33]⟩
abbrev S128x1089 : Shape := ⟨2, ![128, 1089]⟩
abbrev S128x1 : Shape := ⟨2, ![128, 1]⟩
abbrev S64x50x35937 : Shape := ⟨3, ![64, 50, 35937]⟩

abbrev nBuf : Space → Nat
  | .hbm => 17
  | .vmem => 8
  | .smem => 0
  | _ => 0

abbrev bufTy : (tb : Table) → Fin (tcTables nBuf tb) → BufTy
  | .hbm, ⟨0, _⟩ => ⟨S64x50x32, .f32⟩
  | .hbm, ⟨1, _⟩ => ⟨S64x50x32, .f32⟩
  | .hbm, ⟨2, _⟩ => ⟨S64x50x32, .f32⟩
  | .hbm, ⟨3, _⟩ => ⟨S_, .f32⟩
  | .hbm, ⟨4, _⟩ => ⟨S64x50x1, .f32⟩
  | .hbm, ⟨5, _⟩ => ⟨S64x50x33, .f32⟩
  | .hbm, ⟨6, _⟩ => ⟨S3200x33, .f32⟩
  | .hbm, ⟨7, _⟩ => ⟨S_, .f32⟩
  | .hbm, ⟨8, _⟩ => ⟨S64x50x1, .f32⟩
  | .hbm, ⟨9, _⟩ => ⟨S64x50x33, .f32⟩
  | .hbm, ⟨10, _⟩ => ⟨S3200x33, .f32⟩
  | .hbm, ⟨11, _⟩ => ⟨S_, .f32⟩
  | .hbm, ⟨12, _⟩ => ⟨S64x50x1, .f32⟩
  | .hbm, ⟨13, _⟩ => ⟨S64x50x33, .f32⟩
  | .hbm, ⟨14, _⟩ => ⟨S3200x33, .f32⟩
  | .hbm, ⟨15, _⟩ => ⟨S3200x35937, .f32⟩
  | .hbm, ⟨16, _⟩ => ⟨S64x50x35937, .f32⟩
  | .local _ .vmem, ⟨0, _⟩ => ⟨S128x33, .f32⟩
  | .local _ .vmem, ⟨1, _⟩ => ⟨S128x33, .f32⟩
  | .local _ .vmem, ⟨2, _⟩ => ⟨S128x33, .f32⟩
  | .local _ .vmem, ⟨3, _⟩ => ⟨S128x33, .f32⟩
  | .local _ .vmem, ⟨4, _⟩ => ⟨S128x33, .f32⟩
  | .local _ .vmem, ⟨5, _⟩ => ⟨S128x33, .f32⟩
  | .local _ .vmem, ⟨6, _⟩ => ⟨S128x35937, .f32⟩
  | .local _ .vmem, ⟨7, _⟩ => ⟨S128x35937, .f32⟩
  | _, _ => ⟨S64x50x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x33 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x33 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x33 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x35937 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64x50x1 : S_.BroadcastsInDim S64x50x1 (![] : Fin 0 → Fin S64x50x1.rank)
  concatenates_S64x50x1_S64x50x32_S64x50x33_d2 : Shape.Concatenates [S64x50x1, S64x50x32] S64x50x33 2
  shapeCasts_S64x50x33_S3200x33 : S64x50x33.ShapeCasts S3200x33
  inb_S128x33_S128x33_0_0 : ∀ a, (![0, 0] : Fin 2 → Nat) a + S128x33.size a ≤ S128x33.size a
  h_S128x33 : 0 < S128x33.numel
  shapeCasts_S128x33_S128x33 : S128x33.ShapeCasts S128x33
  shapeCasts_S128x33_S128x33x1 : S128x33.ShapeCasts S128x33x1
  shapeCasts_S128x33_S128x1x33 : S128x33.ShapeCasts S128x1x33
  broadcasts_S128x33x1_S128x33x33 : S128x33x1.Broadcasts S128x33x33
  broadcasts_S128x1x33_S128x33x33 : S128x1x33.Broadcasts S128x33x33
  shapeCasts_S128x33x33_S128x1089 : S128x33x33.ShapeCasts S128x1089
  slices_S128x33_o0_0_S128x1 : S128x33.Slices ![0, 0] S128x1
  broadcasts_S128x1_S128x1089 : S128x1.Broadcasts S128x1089
  inb_S128x35937_S128x1089_0_0 : ∀ a, (![0, 0] : Fin 2 → Nat) a + S128x1089.size a ≤ S128x35937.size a
  h_S128x1089 : 0 < S128x1089.numel
  slices_S128x33_o0_1_S128x1 : S128x33.Slices ![0, 1] S128x1
  inb_S128x35937_S128x1089_0_1089 : ∀ a, (![0, 1089] : Fin 2 → Nat) a + S128x1089.size a ≤ S128x35937.size a
  slices_S128x33_o0_2_S128x1 : S128x33.Slices ![0, 2] S128x1
  inb_S128x35937_S128x1089_0_2178 : ∀ a, (![0, 2178] : Fin 2 → Nat) a + S128x1089.size a ≤ S128x35937.size a
  slices_S128x33_o0_3_S128x1 : S128x33.Slices ![0, 3] S128x1
  inb_S128x35937_S128x1089_0_3267 : ∀ a, (![0, 3267] : Fin 2 → Nat) a + S128x1089.size a ≤ S128x35937.size a
  slices_S128x33_o0_4_S128x1 : S128x33.Slices ![0, 4] S128x1
  inb_S128x35937_S128x1089_0_4356 : ∀ a, (![0, 4356] : Fin 2 → Nat) a + S128x1089.size a ≤ S128x35937.size a
  slices_S128x33_o0_5_S128x1 : S128x33.Slices ![0, 5] S128x1
  inb_S128x35937_S128x1089_0_5445 : ∀ a, (![0, 5445] : Fin 2 → Nat) a + S128x1089.size a ≤ S128x35937.size a
  slices_S128x33_o0_6_S128x1 : S128x33.Slices ![0, 6] S128x1
  inb_S128x35937_S128x1089_0_6534 : ∀ a, (![0, 6534] : Fin 2 → Nat) a + S128x1089.size a ≤ S128x35937.size a
  slices_S128x33_o0_7_S128x1 : S128x33.Slices ![0, 7] S128x1
  inb_S128x35937_S128x1089_0_7623 : ∀ a, (![0, 7623] : Fin 2 → Nat) a + S128x1089.size a ≤ S128x35937.size a
  slices_S128x33_o0_8_S128x1 : S128x33.Slices ![0, 8] S128x1
  inb_S128x35937_S128x1089_0_8712 : ∀ a, (![0, 8712] : Fin 2 → Nat) a + S128x1089.size a ≤ S128x35937.size a
  slices_S128x33_o0_9_S128x1 : S128x33.Slices ![0, 9] S128x1
  inb_S128x35937_S128x1089_0_9801 : ∀ a, (![0, 9801] : Fin 2 → Nat) a + S128x1089.size a ≤ S128x35937.size a
  slices_S128x33_o0_10_S128x1 : S128x33.Slices ![0, 10] S128x1
  inb_S128x35937_S128x1089_0_10890 : ∀ a, (![0, 10890] : Fin 2 → Nat) a + S128x1089.size a ≤ S128x35937.size a
  slices_S128x33_o0_11_S128x1 : S128x33.Slices ![0, 11] S128x1
  inb_S128x35937_S128x1089_0_11979 : ∀ a, (![0, 11979] : Fin 2 → Nat) a + S128x1089.size a ≤ S128x35937.size a
  slices_S128x33_o0_12_S128x1 : S128x33.Slices ![0, 12] S128x1
  inb_S128x35937_S128x1089_0_13068 : ∀ a, (![0, 13068] : Fin 2 → Nat) a + S128x1089.size a ≤ S128x35937.size a
  slices_S128x33_o0_13_S128x1 : S128x33.Slices ![0, 13] S128x1
  inb_S128x35937_S128x1089_0_14157 : ∀ a, (![0, 14157] : Fin 2 → Nat) a + S128x1089.size a ≤ S128x35937.size a
  slices_S128x33_o0_14_S128x1 : S128x33.Slices ![0, 14] S128x1
  inb_S128x35937_S128x1089_0_15246 : ∀ a, (![0, 15246] : Fin 2 → Nat) a + S128x1089.size a ≤ S128x35937.size a
  slices_S128x33_o0_15_S128x1 : S128x33.Slices ![0, 15] S128x1
  inb_S128x35937_S128x1089_0_16335 : ∀ a, (![0, 16335] : Fin 2 → Nat) a + S128x1089.size a ≤ S128x35937.size a
  slices_S128x33_o0_16_S128x1 : S128x33.Slices ![0, 16] S128x1
  inb_S128x35937_S128x1089_0_17424 : ∀ a, (![0, 17424] : Fin 2 → Nat) a + S128x1089.size a ≤ S128x35937.size a
  slices_S128x33_o0_17_S128x1 : S128x33.Slices ![0, 17] S128x1
  inb_S128x35937_S128x1089_0_18513 : ∀ a, (![0, 18513] : Fin 2 → Nat) a + S128x1089.size a ≤ S128x35937.size a
  slices_S128x33_o0_18_S128x1 : S128x33.Slices ![0, 18] S128x1
  inb_S128x35937_S128x1089_0_19602 : ∀ a, (![0, 19602] : Fin 2 → Nat) a + S128x1089.size a ≤ S128x35937.size a
  slices_S128x33_o0_19_S128x1 : S128x33.Slices ![0, 19] S128x1
  inb_S128x35937_S128x1089_0_20691 : ∀ a, (![0, 20691] : Fin 2 → Nat) a + S128x1089.size a ≤ S128x35937.size a
  slices_S128x33_o0_20_S128x1 : S128x33.Slices ![0, 20] S128x1
  inb_S128x35937_S128x1089_0_21780 : ∀ a, (![0, 21780] : Fin 2 → Nat) a + S128x1089.size a ≤ S128x35937.size a
  slices_S128x33_o0_21_S128x1 : S128x33.Slices ![0, 21] S128x1
  inb_S128x35937_S128x1089_0_22869 : ∀ a, (![0, 22869] : Fin 2 → Nat) a + S128x1089.size a ≤ S128x35937.size a
  slices_S128x33_o0_22_S128x1 : S128x33.Slices ![0, 22] S128x1
  inb_S128x35937_S128x1089_0_23958 : ∀ a, (![0, 23958] : Fin 2 → Nat) a + S128x1089.size a ≤ S128x35937.size a
  slices_S128x33_o0_23_S128x1 : S128x33.Slices ![0, 23] S128x1
  inb_S128x35937_S128x1089_0_25047 : ∀ a, (![0, 25047] : Fin 2 → Nat) a + S128x1089.size a ≤ S128x35937.size a
  slices_S128x33_o0_24_S128x1 : S128x33.Slices ![0, 24] S128x1
  inb_S128x35937_S128x1089_0_26136 : ∀ a, (![0, 26136] : Fin 2 → Nat) a + S128x1089.size a ≤ S128x35937.size a
  slices_S128x33_o0_25_S128x1 : S128x33.Slices ![0, 25] S128x1
  inb_S128x35937_S128x1089_0_27225 : ∀ a, (![0, 27225] : Fin 2 → Nat) a + S128x1089.size a ≤ S128x35937.size a
  slices_S128x33_o0_26_S128x1 : S128x33.Slices ![0, 26] S128x1
  inb_S128x35937_S128x1089_0_28314 : ∀ a, (![0, 28314] : Fin 2 → Nat) a + S128x1089.size a ≤ S128x35937.size a
  slices_S128x33_o0_27_S128x1 : S128x33.Slices ![0, 27] S128x1
  inb_S128x35937_S128x1089_0_29403 : ∀ a, (![0, 29403] : Fin 2 → Nat) a + S128x1089.size a ≤ S128x35937.size a
  slices_S128x33_o0_28_S128x1 : S128x33.Slices ![0, 28] S128x1
  inb_S128x35937_S128x1089_0_30492 : ∀ a, (![0, 30492] : Fin 2 → Nat) a + S128x1089.size a ≤ S128x35937.size a
  slices_S128x33_o0_29_S128x1 : S128x33.Slices ![0, 29] S128x1
  inb_S128x35937_S128x1089_0_31581 : ∀ a, (![0, 31581] : Fin 2 → Nat) a + S128x1089.size a ≤ S128x35937.size a
  slices_S128x33_o0_30_S128x1 : S128x33.Slices ![0, 30] S128x1
  inb_S128x35937_S128x1089_0_32670 : ∀ a, (![0, 32670] : Fin 2 → Nat) a + S128x1089.size a ≤ S128x35937.size a
  slices_S128x33_o0_31_S128x1 : S128x33.Slices ![0, 31] S128x1
  inb_S128x35937_S128x1089_0_33759 : ∀ a, (![0, 33759] : Fin 2 → Nat) a + S128x1089.size a ≤ S128x35937.size a
  slices_S128x33_o0_32_S128x1 : S128x33.Slices ![0, 32] S128x1
  inb_S128x35937_S128x1089_0_34848 : ∀ a, (![0, 34848] : Fin 2 → Nat) a + S128x1089.size a ≤ S128x35937.size a
  shapeCasts_S3200x35937_S64x50x35937 : S3200x35937.ShapeCasts S64x50x35937
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x33.size a ≤ S3200x33.size a
  hwx0_0 : ∀ i : grid0.Coords, EltTy.bits .f32 = 32 ∨ (Rect.block (s := S3200x33) S128x33.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x33.size a ≤ S3200x33.size a
  hwx0_1 : ∀ i : grid0.Coords, EltTy.bits .f32 = 32 ∨ (Rect.block (s := S3200x33) S128x33.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x33.size a ≤ S3200x33.size a
  hwx0_2 : ∀ i : grid0.Coords, EltTy.bits .f32 = 32 ∨ (Rect.block (s := S3200x33) S128x33.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x35937.size a ≤ S3200x35937.size a
  hwx0_3 : ∀ i : grid0.Coords, EltTy.bits .f32 = 32 ∨ (Rect.block (s := S3200x35937) S128x35937.size (cc0_transform_3 i) (hinb0_3 i)).WholeWords (EltTy.packing .f32)

variable [Facts₀]

abbrev win0_0 : Pipeline.Window sig grid0 :=
  Pipeline.Window.ofSpec (Memref.whole main_v2) S128x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x33.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x33.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x35937.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x50x32 : Shape := ⟨3, ![64, 50, 32]⟩
abbrev S_ : Shape := ⟨0, ![]⟩
abbrev S64x50x1 : Shape := ⟨3, ![64, 50, 1]⟩
abbrev S64x50x33 : Shape := ⟨3, ![64, 50, 33]⟩
abbrev S64x50x33x1x1 : Shape := ⟨5, ![64, 50, 33, 1, 1]⟩
abbrev S64x50x1x33x1 : Shape := ⟨5, ![64, 50, 1, 33, 1]⟩
abbrev S64x50x33x33x1 : Shape := ⟨5, ![64, 50, 33, 33, 1]⟩
abbrev S64x50x1x1x33 : Shape := ⟨5, ![64, 50, 1, 1, 33]⟩
abbrev S64x50x33x33x33 : Shape := ⟨5, ![64, 50, 33, 33, 33]⟩
abbrev S64x50x35937 : Shape := ⟨3, ![64, 50, 35937]⟩

abbrev nBuf : Space → Nat
  | .hbm => 22
  | .vmem => 0
  | .smem => 0
  | _ => 0

abbrev bufTy : (tb : Table) → Fin (tcTables nBuf tb) → BufTy
  | .hbm, ⟨0, _⟩ => ⟨S64x50x32, .f32⟩
  | .hbm, ⟨1, _⟩ => ⟨S64x50x32, .f32⟩
  | .hbm, ⟨2, _⟩ => ⟨S64x50x32, .f32⟩
  | .hbm, ⟨3, _⟩ => ⟨S_, .f32⟩
  | .hbm, ⟨4, _⟩ => ⟨S64x50x1, .f32⟩
  | .hbm, ⟨5, _⟩ => ⟨S64x50x33, .f32⟩
  | .hbm, ⟨6, _⟩ => ⟨S_, .f32⟩
  | .hbm, ⟨7, _⟩ => ⟨S64x50x1, .f32⟩
  | .hbm, ⟨8, _⟩ => ⟨S64x50x33, .f32⟩
  | .hbm, ⟨9, _⟩ => ⟨S_, .f32⟩
  | .hbm, ⟨10, _⟩ => ⟨S64x50x1, .f32⟩
  | .hbm, ⟨11, _⟩ => ⟨S64x50x33, .f32⟩
  | .hbm, ⟨12, _⟩ => ⟨S64x50x33x1x1, .f32⟩
  | .hbm, ⟨13, _⟩ => ⟨S64x50x1x33x1, .f32⟩
  | .hbm, ⟨14, _⟩ => ⟨S64x50x33x33x1, .f32⟩
  | .hbm, ⟨15, _⟩ => ⟨S64x50x33x33x1, .f32⟩
  | .hbm, ⟨16, _⟩ => ⟨S64x50x33x33x1, .f32⟩
  | .hbm, ⟨17, _⟩ => ⟨S64x50x1x1x33, .f32⟩
  | .hbm, ⟨18, _⟩ => ⟨S64x50x33x33x33, .f32⟩
  | .hbm, ⟨19, _⟩ => ⟨S64x50x33x33x33, .f32⟩
  | .hbm, ⟨20, _⟩ => ⟨S64x50x33x33x33, .f32⟩
  | .hbm, ⟨21, _⟩ => ⟨S64x50x35937, .f32⟩
  | _, _ => ⟨S64x50x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S64x50x1 : S_.BroadcastsInDim S64x50x1 (![] : Fin 0 → Fin S64x50x1.rank)
  concatenates_S64x50x1_S64x50x32_S64x50x33_d2 : Shape.Concatenates [S64x50x1, S64x50x32] S64x50x33 2
  bcast_S64x50x33_S64x50x33x1x1_0_1_2 : S64x50x33.BroadcastsInDim S64x50x33x1x1 (![0, 1, 2] : Fin 3 → Fin S64x50x33x1x1.rank)
  bcast_S64x50x33_S64x50x1x33x1_0_1_3 : S64x50x33.BroadcastsInDim S64x50x1x33x1 (![0, 1, 3] : Fin 3 → Fin S64x50x1x33x1.rank)
  bcast_S64x50x33x1x1_S64x50x33x33x1_0_1_2_3_4 : S64x50x33x1x1.BroadcastsInDim S64x50x33x33x1 (![0, 1, 2, 3, 4] : Fin 5 → Fin S64x50x33x33x1.rank)
  bcast_S64x50x1x33x1_S64x50x33x33x1_0_1_2_3_4 : S64x50x1x33x1.BroadcastsInDim S64x50x33x33x1 (![0, 1, 2, 3, 4] : Fin 5 → Fin S64x50x33x33x1.rank)
  bcast_S64x50x33_S64x50x1x1x33_0_1_4 : S64x50x33.BroadcastsInDim S64x50x1x1x33 (![0, 1, 4] : Fin 3 → Fin S64x50x1x1x33.rank)
  bcast_S64x50x33x33x1_S64x50x33x33x33_0_1_2_3_4 : S64x50x33x33x1.BroadcastsInDim S64x50x33x33x33 (![0, 1, 2, 3, 4] : Fin 5 → Fin S64x50x33x33x33.rank)
  bcast_S64x50x1x1x33_S64x50x33x33x33_0_1_2_3_4 : S64x50x1x1x33.BroadcastsInDim S64x50x33x33x33 (![0, 1, 2, 3, 4] : Fin 5 → Fin S64x50x33x33x33.rank)
  shapeCasts_S64x50x33x33x33_S64x50x35937 : S64x50x33x33x33.ShapeCasts S64x50x35937

variable [Facts₀]

class Facts : Prop extends Facts₀ where

variable [Facts]
-- ==== Proof.OuterSpec.lean ====
/-
  The triple outer product, as one function of an index.

  Three matrices `v`, `a`, `d` with 33 columns and a common set of rows give, for each row `r`, the
  rank-3 tensor `v[r,i] · a[r,j] · d[r,k]`, laid out flat along one axis of length 33·33·33 = 35937 in the order
  `(i, j, k)`: the entry at flat position `q` has `i = q / 1089`, `j = q / 33 % 33`, `k = q % 33`.
  `cell` is that entry, grouped `v · (a · d)`. The same entry grouped `(v · a) · d` is equal to it because the
  product of extended reals is associative (`cell_assoc`): no finiteness is needed.

  The second half reads the layout operations that move between the tensor's shapes at an index: the flat
  axis of length 1089 = 33·33 against the pair `(j, k)`, a matrix against the same matrix with a unit axis
  put in the middle or at the end, a unit axis broadcast to 33 or to 1089, and the row axis of length
  3200 = 64·50 against the pair `(b, t)`.
-/
import Idealize.ShloMosaic.PureOps.Ideal
import Idealize.ShloMosaic.Lib.ValueIdx
import Idealize.ShloMosaic.Lib.Pipeline.Value

noncomputable section

namespace Cert.Outer

open Idealize.ShloMosaic Idealize.ShloMosaic.ValueIdx

/-! ## Splitting a flat position -/

/-- The first digit of a position below 33³ in base 33. -/
def hi (q : Fin 35937) : Fin 33 := ⟨q.val / 1089, by have := q.isLt; omega⟩
/-- The middle digit. -/
def mid (q : Fin 35937) : Fin 33 := ⟨q.val / 33 % 33, by omega⟩
/-- The last digit. -/
def lo (q : Fin 35937) : Fin 33 := ⟨q.val % 33, by omega⟩

/-- The first digit of a position below 33² in base 33. -/
def hi2 (c : Fin 1089) : Fin 33 := ⟨c.val / 33, by have := c.isLt; omega⟩
/-- The last digit. -/
def lo2 (c : Fin 1089) : Fin 33 := ⟨c.val % 33, by omega⟩

/-- Position `1089·i + c` has first digit `i` … -/
theorem hi_of (q : Fin 35937) (i : Fin 33) (c : Fin 1089) (h : q.val = 1089 * i.val + c.val) : hi q = i :=
  Fin.ext (by show q.val / 1089 = i.val; have := c.isLt; omega)
/-- … and its other two digits are those of `c`. -/
theorem mid_of (q : Fin 35937) (i : Fin 33) (c : Fin 1089) (h : q.val = 1089 * i.val + c.val) : mid q = hi2 c :=
  Fin.ext (by show q.val / 33 % 33 = c.val / 33; have := c.isLt; omega)
theorem lo_of (q : Fin 35937) (i : Fin 33) (c : Fin 1089) (h : q.val = 1089 * i.val + c.val) : lo q = lo2 c :=
  Fin.ext (by show q.val % 33 = c.val % 33; omega)

/-! ## The entry -/

/-- Entry `(r, q)` of the flattened triple outer product of the rows of `v`, `a`, `d`: `v[r,i] · (a[r,j] · d[r,k])`
    with `(i, j, k)` the base-33 digits of `q`. -/
def cell {N : Nat} (v a d : (⟨2, ![N, 33]⟩ : Shape).Idx → EReal) (r : Fin N) (q : Fin 35937) : EReal :=
  v (ix2 r (hi q)) * (a (ix2 r (mid q)) * d (ix2 r (lo q)))

/-- The entry at position `1089·i + c`: the column `i` of `v` times the entry `c` of the flattened `a ⊗ d`. -/
theorem cell_of {N : Nat} (v a d : (⟨2, ![N, 33]⟩ : Shape).Idx → EReal) (r : Fin N) (q : Fin 35937) (i : Fin 33) (c : Fin 1089)
    (h : q.val = 1089 * i.val + c.val) :
    cell v a d r q = v (ix2 r i) * (a (ix2 r (hi2 c)) * d (ix2 r (lo2 c))) := by
  unfold cell
  rw [hi_of q i c h, mid_of q i c h, lo_of q i c h]

/-- Grouped the other way the entry is the same: multiplication of extended reals is associative. -/
theorem cell_assoc {N : Nat} (v a d : (⟨2, ![N, 33]⟩ : Shape).Idx → EReal) (r : Fin N) (q : Fin 35937) :
    v (ix2 r (hi q)) * a (ix2 r (mid q)) * d (ix2 r (lo q)) = cell v a d r q :=
  mul_assoc _ _ _

/-- THE RESULT as one function of three `[64, 50, 33]` arrays `pv`, `pa`, `pd`: entry `(b, t, q)` is
    `pv[b,t,i] · (pa[b,t,j] · pd[b,t,k])` with `(i, j, k)` the base-33 digits of `q`. -/
def outer3 (pv pa pd : (⟨3, ![64, 50, 33]⟩ : Shape).Idx → EReal) : (⟨3, ![64, 50, 35937]⟩ : Shape).Idx → EReal :=
  fun i => pv (ix3 (i 0) (i 1) (hi (i 2))) * (pa (ix3 (i 0) (i 1) (mid (i 2))) * pd (ix3 (i 0) (i 1) (lo (i 2))))

/-! ## Layout operations at an index -/

section Layout
variable {α : Type}

/-- A `[128, 33, 33]` array viewed `[128, 1089]`: position `c` of the flat axis is the pair of its digits. -/
theorem flat_apply (x : (⟨3, ![128, 33, 33]⟩ : Shape).Idx → α)
    (h : (⟨3, ![128, 33, 33]⟩ : Shape).ShapeCasts ⟨2, ![128, 1089]⟩) (r : Fin 128) (c : Fin 1089) :
    shapeCast ⟨2, ![128, 1089]⟩ x h (ix2 r c) = x (ix3 r (hi2 c) (lo2 c)) :=
  shapeCast_apply x h _ _ (by
    rw [Shape.rowMajor_val_three, Shape.rowMajor_val_two]
    show (r.val * 33 + c.val / 33) * 33 + c.val % 33 = r.val * 1089 + c.val
    omega)

/-- A `[128, 33]` matrix viewed `[128, 33, 1]`. -/
theorem col_apply (x : (⟨2, ![128, 33]⟩ : Shape).Idx → α)
    (h : (⟨2, ![128, 33]⟩ : Shape).ShapeCasts ⟨3, ![128, 33, 1]⟩) (r : Fin 128) (j : Fin 33) (u : Fin 1) :
    shapeCast ⟨3, ![128, 33, 1]⟩ x h (ix3 r j u) = x (ix2 r j) :=
  shapeCast_apply x h _ _ (by
    have hu : u.val = 0 := by omega
    rw [Shape.rowMajor_val_two, Shape.rowMajor_val_three]
    show r.val * 33 + j.val = (r.val * 33 + j.val) * 1 + u.val
    omega)

/-- A `[128, 33]` matrix viewed `[128, 1, 33]`. -/
theorem row_apply (x : (⟨2, ![128, 33]⟩ : Shape).Idx → α)
    (h : (⟨2, ![128, 33]⟩ : Shape).ShapeCasts ⟨3, ![128, 1, 33]⟩) (r : Fin 128) (u : Fin 1) (k : Fin 33) :
    shapeCast ⟨3, ![128, 1, 33]⟩ x h (ix3 r u k) = x (ix2 r k) :=
  shapeCast_apply x h _ _ (by
    have hu : u.val = 0 := by omega
    rw [Shape.rowMajor_val_two, Shape.rowMajor_val_three]
    show r.val * 33 + k.val = (r.val * 1 + u.val) * 33 + k.val
    omega)

/-- A `[128, 33, 1]` array broadcast along its last axis to `[128, 33, 33]`. -/
theorem bcast_last_apply (x : (⟨3, ![128, 33, 1]⟩ : Shape).Idx → α)
    (h : (⟨3, ![128, 33, 1]⟩ : Shape).Broadcasts ⟨3, ![128, 33, 33]⟩) (r : Fin 128) (j k : Fin 33) :
    broadcastTo ⟨3, ![128, 33, 33]⟩ x h (ix3 r j k) = x (ix3 r j (0 : Fin 1)) :=
  broadcastTo_apply x h _ _ (fun a => match a with
    | ⟨0, _⟩ => by show r.val = if (128 : Nat) = 1 then 0 else r.val; rw [if_neg (by decide)]
    | ⟨1, _⟩ => by show j.val = if (33 : Nat) = 1 then 0 else j.val; rw [if_neg (by decide)]
    | ⟨2, _⟩ => by show 0 = if (1 : Nat) = 1 then 0 else k.val; rw [if_pos rfl])

/-- A `[128, 1, 33]` array broadcast along its middle axis to `[128, 33, 33]`. -/
theorem bcast_mid_apply (x : (⟨3, ![128, 1, 33]⟩ : Shape).Idx → α)
    (h : (⟨3, ![128, 1, 33]⟩ : Shape).Broadcasts ⟨3, ![128, 33, 33]⟩) (r : Fin 128) (j k : Fin 33) :
    broadcastTo ⟨3, ![128, 33, 33]⟩ x h (ix3 r j k) = x (ix3 r (0 : Fin 1) k) :=
  broadcastTo_apply x h _ _ (fun a => match a with
    | ⟨0, _⟩ => by show r.val = if (128 : Nat) = 1 then 0 else r.val; rw [if_neg (by decide)]
    | ⟨1, _⟩ => by show 0 = if (1 : Nat) = 1 then 0 else j.val; rw [if_pos rfl]
    | ⟨2, _⟩ => by show k.val = if (33 : Nat) = 1 then 0 else k.val; rw [if_neg (by decide)])

/-- A `[128, 1]` column broadcast along the lanes to `[128, 1089]`. -/
theorem bcast_lane_apply (x : (⟨2, ![128, 1]⟩ : Shape).Idx → α)
    (h : (⟨2, ![128, 1]⟩ : Shape).Broadcasts ⟨2, ![128, 1089]⟩) (r : Fin 128) (c : Fin 1089) :
    broadcastTo ⟨2, ![128, 1089]⟩ x h (ix2 r c) = x (ix2 r (0 : Fin 1)) :=
  broadcastTo_apply x h _ _ (fun a => match a with
    | ⟨0, _⟩ => by show r.val = if (128 : Nat) = 1 then 0 else r.val; rw [if_neg (by decide)]
    | ⟨1, _⟩ => by show 0 = if (1 : Nat) = 1 then 0 else c.val; rw [if_pos rfl])

/-- Column `o` of a `[128, 33]` matrix, cut out as a `[128, 1]` column. -/
theorem column_apply (o : Nat) (x : (⟨2, ![128, 33]⟩ : Shape).Idx → α)
    (h : (⟨2, ![128, 33]⟩ : Shape).Slices ![0, o] ⟨2, ![128, 1]⟩) (r : Fin 128) (u : Fin 1) (i : Fin 33) (hi : i.val = o) :
    extractStridedSlice ⟨2, ![128, 1]⟩ ![0, o] x h (ix2 r u) = x (ix2 r i) :=
  extractStridedSlice_apply _ x h _ _ (fun a => match a with
    | ⟨0, _⟩ => by show r.val = 0 + r.val; omega
    | ⟨1, _⟩ => by show i.val = o + u.val; have hu : u.val = 0 := by omega
                   omega)

/-- A `[64, 50, 33]` array viewed `[3200, 33]`: row `R` is the pair `(R / 50, R % 50)`. -/
theorem rows_apply (x : (⟨3, ![64, 50, 33]⟩ : Shape).Idx → α)
    (h : (⟨3, ![64, 50, 33]⟩ : Shape).ShapeCasts ⟨2, ![3200, 33]⟩) (R : Fin 3200) (k : Fin 33) :
    shapeCast ⟨2, ![3200, 33]⟩ x h (ix2 R k)
      = x (ix3 (⟨R.val / 50, by have := R.isLt; omega⟩ : Fin 64) (⟨R.val % 50, by omega⟩ : Fin 50) k) :=
  shapeCast_apply x h _ _ (by
    rw [Shape.rowMajor_val_three, Shape.rowMajor_val_two]
    show (R.val / 50 * 50 + R.val % 50) * 33 + k.val = R.val * 33 + k.val
    omega)

/-- The same with the row named: row `50·b + t` is the pair `(b, t)`. -/
theorem rows_pair_apply (x : (⟨3, ![64, 50, 33]⟩ : Shape).Idx → α)
    (h : (⟨3, ![64, 50, 33]⟩ : Shape).ShapeCasts ⟨2, ![3200, 33]⟩) (b : Fin 64) (t : Fin 50) (k : Fin 33)
    (R : Fin 3200) (hR : R.val = b.val * 50 + t.val) :
    shapeCast ⟨2, ![3200, 33]⟩ x h (ix2 R k) = x (ix3 b t k) :=
  shapeCast_apply x h _ _ (by
    rw [Shape.rowMajor_val_three, Shape.rowMajor_val_two]
    show (b.val * 50 + t.val) * 33 + k.val = R.val * 33 + k.val
    rw [hR])

/-- A `[3200, 35937]` array viewed `[64, 50, 35937]`: the pair `(b, t)` is row `50·b + t`. -/
theorem unrows_apply (x : (⟨2, ![3200, 35937]⟩ : Shape).Idx → α)
    (h : (⟨2, ![3200, 35937]⟩ : Shape).ShapeCasts ⟨3, ![64, 50, 35937]⟩) (b : Fin 64) (t : Fin 50) (q : Fin 35937) :
    shapeCast ⟨3, ![64, 50, 35937]⟩ x h (ix3 b t q)
      = x (ix2 (⟨b.val * 50 + t.val, by have := b.isLt; have := t.isLt; omega⟩ : Fin 3200) q) :=
  shapeCast_apply x h _ _ (by
    rw [Shape.rowMajor_val_two, Shape.rowMajor_val_three]
    show (b.val * 50 + t.val) * 35937 + q.val = (b.val * 50 + t.val) * 35937 + q.val
    rfl)

end Layout

end Cert.Outer

end
-- ==== Proof.Block.lean ====
/-
  What one grid point leaves in the output block.

  At a grid point the body holds the point's 128 rows of the three padded matrices `v`, `a`, `d` (33 columns each).
  It first forms the row-wise outer product `a ⊗ d`, flattened to 1089 = 33·33 columns: column `c` is
  `a[r, c / 33] · d[r, c % 33]`. Then for each of the 33 columns `i` of `v` it writes the tile
  `v[r, i] · (a ⊗ d)[r, c]` into columns `1089·i … 1089·i + 1088` of the `[128, 35937]` block.
  The 33 tiles are the restrictions of ONE function of the block's index, `Cert.Outer.cell`, to 33 rectangles
  that tile the block, so the block ends as that function everywhere.
-/
import proofs.«181002_j67920612819047_1_alg».proof.Proof.Gen.KernelIdeal.Frame
import proofs.«181002_j67920612819047_1_alg».proof.Proof.OuterSpec
import Idealize.ShloMosaic.Lib.Pipeline.Value
import Idealize.ShloMosaic.Lib.ValueIdx

set_option maxRecDepth 16384

noncomputable section

namespace Cert.KernelIdeal.Block

open Cert.KernelIdeal Cert.KernelIdeal.Gen Cert.Outer
open Idealize.ShloMosaic Idealize.ShloMosaic.ValueIdx

theorem zero_offsets : (![0, 0] : Fin 2 → Nat) = fun _ => 0 := funext fun a => by fin_cases a <;> rfl

/-- The loaded `v` block is used as it is. -/
theorem vcopy_eq (x0 : Vec Ideal S128x33 .f32) : k0_pay2 (F := Ideal) x0 = x0 :=
  shapeCast_self x0 _

/-- The flattened row-wise outer product `a ⊗ d`: column `c` is `a[r, c / 33] · d[r, c % 33]`. -/
theorem adFlat_apply (x1 x2 : Vec Ideal S128x33 .f32) (r : Fin 128) (c : Fin 1089) :
    k0_pay3 (F := Ideal) x1 x2 (ix2 r c) = x1 (ix2 r (hi2 c)) * x2 (ix2 r (lo2 c)) := by
  unfold k0_pay3
  refine (flat_apply _ _ r c).trans ((mulf_apply _ _ _).trans ?_)
  refine congrArg₂ (· * ·) ?_ ?_
  · exact (bcast_last_apply _ _ r (hi2 c) (lo2 c)).trans
      ((col_apply _ _ r (hi2 c) 0).trans (congrFun (shapeCast_self x1 _) _))
  · exact (bcast_mid_apply _ _ r (hi2 c) (lo2 c)).trans
      ((row_apply _ _ r 0 (lo2 c)).trans (congrFun (shapeCast_self x2 _) _))

/-- Column `k` of a matrix, spread along 1089 lanes, times a `[128, 1089]` array: entry `(r, c)` is
    `v1[r, k] · v11[r, c]`. -/
theorem colTimes_apply (k : Nat) (v1 : FVec Ideal S128x33 .f32) (v11 : FVec Ideal S128x1089 .f32)
    (hs : S128x33.Slices ![0, k] S128x1) (hb : S128x1.Broadcasts S128x1089) (r : Fin 128) (c : Fin 1089)
    (i : Fin 33) (hi : i.val = k) :
    mulf (broadcastTo S128x1089 (extractStridedSlice S128x1 ![0, k] v1 hs) hb) v11 (ix2 r c)
      = v1 (ix2 r i) * v11 (ix2 r c) :=
  (mulf_apply _ _ _).trans
    (congrArg (· * v11 (ix2 r c)) ((bcast_lane_apply _ hb r c).trans (column_apply k v1 hs r 0 i hi)))

/-- The tile written at column offset `o = 1089·k` is the restriction of `cell` to its rectangle. -/
theorem tile_eq (k o : Nat) (hk : k < 33) (ho : o = 1089 * k)
    (inb : ∀ a, (![0, o] : Fin 2 → Nat) a + S128x1089.size a ≤ S128x35937.size a)
    (hs : S128x33.Slices ![0, k] S128x1) (hb : S128x1.Broadcasts S128x1089)
    (x0 x1 x2 : Vec Ideal S128x33 .f32)
    (x : (Rect.unit (s := S128x35937) ![0, o] S128x1089.size inb).shape.Idx) :
    mulf (broadcastTo S128x1089 (extractStridedSlice S128x1 ![0, k] (k0_pay2 (F := Ideal) x0) hs) hb)
        (k0_pay3 (F := Ideal) x1 x2) x
      = cell x0 x1 x2 ((Rect.unit (s := S128x35937) ![0, o] S128x1089.size inb).emb x 0)
          ((Rect.unit (s := S128x35937) ![0, o] S128x1089.size inb).emb x 1) := by
  obtain ⟨r, c, rfl⟩ : ∃ (r : Fin 128) (c : Fin 1089), x = ix2 r c := ⟨x 0, x 1, eq_ix2 x⟩
  have hr : (Rect.unit (s := S128x35937) ![0, o] S128x1089.size inb).emb (ix2 r c) 0 = r :=
    Fin.ext (by show 0 + 1 * r.val = r.val; omega)
  refine (colTimes_apply k _ _ hs hb r c ⟨k, hk⟩ rfl).trans ?_
  rw [adFlat_apply, vcopy_eq, hr]
  exact (cell_of x0 x1 x2 r _ ⟨k, hk⟩ c (by show o + 1 * c.val = 1089 * k + c.val; omega)).symm

/-- THE BLOCK after the body: the triple outer product of the point's rows, entry by entry. -/
theorem out_block (x0 x1 x2 : Vec Ideal S128x33 .f32) (y : S128x35937.Idx) :
    out0_3 (F := Ideal) x0 x1 x2 y = cell x0 x1 x2 (y 0) (y 1) := by
  unfold out0_3
  simp only [View.ld_unit_zero (S := S128x33) zero_offsets]
  refine View.canon_apply_of_pieces (Val := Elt Ideal) (S := S128x35937) (e := .f32)
    (fun y => cell x0 x1 x2 (y 0) (y 1)) _ ?_ y
    (cover0_3 _ _ _ _ _ _ _ _ _ _ _ _ _ _ _ _ _ _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl | rfl
    | rfl | rfl | rfl | rfl | rfl | rfl | rfl | rfl | rfl | rfl | rfl | rfl | rfl | rfl | rfl | rfl
  all_goals exact fun x => tile_eq _ _ (by decide) (by decide) (by decide) _ _ x0 x1 x2 x

end Cert.KernelIdeal.Block

end
-- ==== Proof.Flush.lean ====
/-
  From blocks to the array.

  The output array has 3200 rows and 35937 columns; grid point `t` (of 25) owns rows `128·t … 128·t + 127`, all
  columns, and reads the same 128 rows of the three input matrices. What point `t` writes back is therefore the
  restriction to its rows of ONE function of the array's index — the triple outer product of the whole input
  matrices (`rowsOuter`) —, and the 25 blocks tile the array: after the run the array IS that function.
-/
import proofs.«181002_j67920612819047_1_alg».proof.Proof.Block

set_option maxRecDepth 16384

noncomputable section

namespace Cert.KernelIdeal.Flush

open Cert.KernelIdeal Cert.KernelIdeal.Gen Cert.Outer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The triple outer product of the three staged `[3200, 33]` matrices as the region finds them, entry by entry. -/
def rowsOuter (c : Dev nD) : S3200x35937.Idx → EReal :=
  fun i => cell (V m c main_v2) (V m c main_v5) (V m c main_v8) (i 0) (i 1)

/-- Every window's block index at point `t` is `(t, 0)`: decided over the 25 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `y 0` of the `v` block at point `t` is the array's row under the output block's row `y 0`. -/
theorem vblk_apply (c : Dev nD) (t : Fin cfg0.N) (y : S128x35937.Idx) (k : Fin 33) :
    iblk m c 0 t (ix2 (y 0 : Fin 128) k)
      = V m c main_v2 (ix2 (((cfg0.win 3).blk t).view.emb y 0 : Fin 3200) k) := by
  show V m c main_v2 (((cfg0.win 0).blk t).view.emb (ix2 (y 0 : Fin 128) k)) = _
  refine congrArg _ ?_
  funext a; apply Fin.ext
  obtain ⟨e0, e1, -, -, -, -, e6, -⟩ := idx_facts t
  match a with
  | ⟨0, _⟩ =>
    show win0_0.index t (0 : Fin 2) * 128 + 1 * (y 0).val = win0_3.index t (0 : Fin 2) * 128 + 1 * (y 0).val
    omega
  | ⟨1, _⟩ =>
    show win0_0.index t (1 : Fin 2) * 33 + 1 * k.val = k.val
    omega

/-- The same for the `a` block … -/
theorem ablk_apply (c : Dev nD) (t : Fin cfg0.N) (y : S128x35937.Idx) (k : Fin 33) :
    iblk m c 1 t (ix2 (y 0 : Fin 128) k)
      = V m c main_v5 (ix2 (((cfg0.win 3).blk t).view.emb y 0 : Fin 3200) k) := by
  show V m c main_v5 (((cfg0.win 1).blk t).view.emb (ix2 (y 0 : Fin 128) k)) = _
  refine congrArg _ ?_
  funext a; apply Fin.ext
  obtain ⟨-, -, e2, e3, -, -, e6, -⟩ := idx_facts t
  match a with
  | ⟨0, _⟩ =>
    show win0_1.index t (0 : Fin 2) * 128 + 1 * (y 0).val = win0_3.index t (0 : Fin 2) * 128 + 1 * (y 0).val
    omega
  | ⟨1, _⟩ =>
    show win0_1.index t (1 : Fin 2) * 33 + 1 * k.val = k.val
    omega

/-- … and for the `d` block. -/
theorem dblk_apply (c : Dev nD) (t : Fin cfg0.N) (y : S128x35937.Idx) (k : Fin 33) :
    iblk m c 2 t (ix2 (y 0 : Fin 128) k)
      = V m c main_v8 (ix2 (((cfg0.win 3).blk t).view.emb y 0 : Fin 3200) k) := by
  show V m c main_v8 (((cfg0.win 2).blk t).view.emb (ix2 (y 0 : Fin 128) k)) = _
  refine congrArg _ ?_
  funext a; apply Fin.ext
  obtain ⟨-, -, -, -, e4, e5, e6, -⟩ := idx_facts t
  match a with
  | ⟨0, _⟩ =>
    show win0_2.index t (0 : Fin 2) * 128 + 1 * (y 0).val = win0_3.index t (0 : Fin 2) * 128 + 1 * (y 0).val
    omega
  | ⟨1, _⟩ =>
    show win0_2.index t (1 : Fin 2) * 33 + 1 * k.val = k.val
    omega

/-- The column of an entry of the output block is its column in the array: a block spans all 35937 columns. -/
theorem col_keep (t : Fin cfg0.N) (y : S128x35937.Idx) :
    (((cfg0.win 3).blk t).view.emb y 1 : Fin 35937) = (y 1 : Fin 35937) := by
  apply Fin.ext
  obtain ⟨-, -, -, -, -, -, -, e7⟩ := idx_facts t
  show win0_3.index t (1 : Fin 2) * 35937 + 1 * (y 1).val = (y 1).val
  omega

/-- WHAT POINT `t` WRITES BACK is block `t` of the whole matrices' triple outer product. -/
theorem flushed_eq (c : Dev nD) (t : Fin cfg0.N) :
    (dats m 0 c).flushed 3 t = ((cfg0.win 3).blk t).view.read (Elt Ideal) (rowsOuter m c) := by
  show (cfg0.win 3).cut (grid0.coords t) ((dats m 0 c).after 3 t) = _
  rw [after0_3]
  funext y
  show out0_3 (iblk m c 0 t) (iblk m c 1 t) (iblk m c 2 t) y = rowsOuter m c (((cfg0.win 3).blk t).view.emb y)
  refine (Block.out_block (iblk m c 0 t) (iblk m c 1 t) (iblk m c 2 t) y).trans ?_
  unfold rowsOuter cell
  rw [col_keep t y]
  exact congrArg₂ (· * ·) (vblk_apply m c t y _)
    (congrArg₂ (· * ·) (ablk_apply m c t y _) (dblk_apply m c t y _))

/-- An index of the array is in point `t`'s block iff each coordinate is in the block's range on its axis. -/
theorem mem_blk (t : Fin cfg0.N) (i : S3200x35937.Idx) :
    i ∈ ((cfg0.win 3).blk t).view.set ↔ ∀ a : Fin 2, win0_3.index t a * S128x35937.size a ≤ (i a).val
      ∧ (i a).val < win0_3.index t a * S128x35937.size a + S128x35937.size a := by
  show i ∈ ((View.whole main_v9).slice (win0_3.rect t)).set ↔ _
  rw [View.set_slice_whole, Rect.mem_set_unit]
  exact Iff.rfl

/-- The 25 blocks tile the array: row `R` belongs to point `R / 128`. -/
theorem cover (i : S3200x35937.Idx) :
    ∃ t : Fin cfg0.N, (cfg0.win 3).flush t = true ∧ i ∈ ((cfg0.win 3).blk t).view.set := by
  have h0 : (i 0).val < 3200 := (i 0).isLt
  have h1 : (i 1).val < 35937 := (i 1).isLt
  have hN : grid0.N = 25 := N_0
  obtain ⟨t, ht⟩ : ∃ t : Fin cfg0.N, t.val = (i 0).val / 128 :=
    ⟨⟨(i 0).val / 128, by show (i 0).val / 128 < grid0.N; omega⟩, rfl⟩
  refine ⟨t, flush0_3 t, ?_⟩
  rw [mem_blk]
  obtain ⟨-, -, -, -, -, -, e6, e7⟩ := idx_facts t
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 35937 ≤ (i 1).val ∧ (i 1).val < win0_3.index t (1 : Fin 2) * 35937 + 35937
    omega

/-- THE ARRAY after the run is the whole matrices' triple outer product. -/
theorem final (c : Dev nD) : (dats m 0 c).arrAt 3 cfg0.N = rowsOuter m c :=
  (dats m 0 c).arrAt_eq_of_cover 3 (rowsOuter m c) (fun t _ => flushed_eq m c t) cover

end Cert.KernelIdeal.Flush

end
-- ==== Proof.KernelOuter.lean ====
/-
  The kernel's program, entry by entry.

  Before the region the program pads each input with a leading column of ones (`padded`: `[64, 50, 33]`) and views
  it as a `[3200, 33]` matrix, row `50·b + t` for the pair `(b, t)`. The region leaves the triple outer product of
  the three matrices in a `[3200, 35937]` array (`Flush.final`), and the one operation after the region views
  that array as `[64, 50, 35937]`. Composed: entry `(b, t, q)` of the result is `Cert.Outer.outer3` of the
  three padded arrays.
-/
import proofs.«181002_j67920612819047_1_alg».proof.Proof.Flush
import Idealize.ShloMosaic.Lib.StableHlo.Run

set_option maxRecDepth 16384

noncomputable section

namespace Cert.KernelIdeal.KernelOuter

open Cert.KernelIdeal Cert.KernelIdeal.Gen Cert.Outer
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- An input with a column of ones put in front of its last axis. -/
def padded (x : (⟨S64x50x32, .f32⟩ : BufTy).Contents (Elt Ideal)) : (⟨S64x50x33, .f32⟩ : BufTy).Contents (Elt Ideal) :=
  concatenate S64x50x33 2 [⟨S64x50x1, broadcastInDim S64x50x1 ![] bcast_S_S64x50x1 (constant (F := Ideal) S_ .f32 0x3F800000#32)⟩,
    ⟨S64x50x32, x⟩] concatenates_S64x50x1_S64x50x32_S64x50x33_d2

/-- The `v` matrix the region finds: the padded first input, its two leading axes merged. -/
theorem v_rows (c : Dev nD) :
    (V m c main_v2 : S3200x33.Idx → EReal)
      = shapeCast S3200x33 (padded (m ((c : Thread nD τ).loc main_arg0))) shapeCasts_S64x50x33_S3200x33 := by
  show StableHlo.after hostOps0 (fun b => m (c, b)) (Proc.devRef .tc main_v2) = _
  after_results
  rfl

/-- The `a` matrix: the padded second input. -/
theorem a_rows (c : Dev nD) :
    (V m c main_v5 : S3200x33.Idx → EReal)
      = shapeCast S3200x33 (padded (m ((c : Thread nD τ).loc main_arg1))) shapeCasts_S64x50x33_S3200x33 := by
  show StableHlo.after hostOps0 (fun b => m (c, b)) (Proc.devRef .tc main_v5) = _
  after_results
  rfl

/-- The `d` matrix: the padded third input. -/
theorem d_rows (c : Dev nD) :
    (V m c main_v8 : S3200x33.Idx → EReal)
      = shapeCast S3200x33 (padded (m ((c : Thread nD τ).loc main_arg2))) shapeCasts_S64x50x33_S3200x33 := by
  show StableHlo.after hostOps0 (fun b => m (c, b)) (Proc.devRef .tc main_v8) = _
  after_results
  rfl

/-- The result buffer after the operation that follows the region: the region's output array, its row axis split. -/
theorem tail_eq (c : Dev nD) :
    Pipeline.afterTail₀ cfgs (dats m) 0 (V0 m) [hostOps1] c main_v10
      = shapeCast S64x50x35937 (Flush.rowsOuter m c) shapeCasts_S3200x35937_S64x50x35937 := by
  unfold Pipeline.afterTail₀
  show StableHlo.after hostOps1 _ (Proc.devRef .tc main_v10) = _
  after_results
  have e := (Pipeline.withArrays_arr spec0 launch0.win.arr_inj c (V0 m c)
    (fun w => (dats m 0 c).arrAt w cfg0.N) 3).trans (Flush.final m c)
  exact funext fun i => congrFun (congrArg
    (fun X : S3200x35937.Idx → EReal => shapeCast S64x50x35937 X shapeCasts_S3200x35937_S64x50x35937) e) i

/-- A `[3200, 35937]` array with its row axis split into `[64, 50]`: the pair `(b, t)` reads row `50·b + t`. -/
theorem unrows_pair_apply {α : Type} (x : (⟨2, ![3200, 35937]⟩ : Shape).Idx → α)
    (h : (⟨2, ![3200, 35937]⟩ : Shape).ShapeCasts ⟨3, ![64, 50, 35937]⟩) (b : Fin 64) (t : Fin 50) (q : Fin 35937)
    (R : Fin 3200) (hR : R.val = b.val * 50 + t.val) :
    shapeCast ⟨3, ![64, 50, 35937]⟩ x h (ix3 b t q) = x (ix2 R q) :=
  shapeCast_apply x h _ _ (by
    rw [Shape.rowMajor_val_two, Shape.rowMajor_val_three]
    show R.val * 35937 + q.val = (b.val * 50 + t.val) * 35937 + q.val
    rw [hR])

/-- THE KERNEL PROGRAM'S RESULT, entry by entry: the triple outer product of the three padded inputs. -/
theorem result_eq (c : Dev nD) :
    shapeCast S64x50x35937 (Flush.rowsOuter m c) shapeCasts_S3200x35937_S64x50x35937
      = outer3 (padded (m ((c : Thread nD τ).loc main_arg0))) (padded (m ((c : Thread nD τ).loc main_arg1)))
          (padded (m ((c : Thread nD τ).loc main_arg2))) := by
  funext i
  obtain ⟨b, t, q, rfl⟩ : ∃ (b : Fin 64) (t : Fin 50) (q : Fin 35937), i = ix3 b t q := ⟨i 0, i 1, i 2, eq_ix3 i⟩
  obtain ⟨R, hR⟩ : ∃ R : Fin 3200, R.val = b.val * 50 + t.val :=
    ⟨⟨b.val * 50 + t.val, by have := b.isLt; have := t.isLt; omega⟩, rfl⟩
  refine (unrows_pair_apply _ _ b t q R hR).trans ?_
  exact congrArg₂ (· * ·)
    ((congrFun (v_rows m c) _).trans (rows_pair_apply _ _ b t (hi q) R hR))
    (congrArg₂ (· * ·) ((congrFun (a_rows m c) _).trans (rows_pair_apply _ _ b t (mid q) R hR))
      ((congrFun (d_rows m c) _).trans (rows_pair_apply _ _ b t (lo q) R hR)))

/-- THE RUN of the kernel's program: it terminates with the result at the triple outer product of the padded inputs
    and the inputs unchanged. -/
theorem run : θ_run defs (onTc (τ := τ) (main (F := Ideal))) ⟨m, fun _ => 0, ρ⟩ fun r => ∀ c : Dev nD,
      r.2.mem ((c : Thread nD τ).loc main_v10)
        = outer3 (padded (m ((c : Thread nD τ).loc main_arg0))) (padded (m ((c : Thread nD τ).loc main_arg1)))
            (padded (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(((h c).2 main_v10 (Pipeline.mem_restRefs_of main_v10 (by decide) (by decide))).trans (tail_eq m c)).trans
        (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelOuter

end
-- ==== Proof.RefOuter.lean ====
/-
  The reference, entry by entry.

  The reference pads each input with a leading column of ones (`[64, 50, 33]`), places the three padded arrays on
  axes 2, 3 and 4 of a rank-5 array by broadcasting, multiplies `(v · a) · d`, and flattens the last three axes
  in row-major order. Read back through the flattening, entry `(b, t, q)` takes `v` at the first base-33 digit of
  `q`, `a` at the middle one and `d` at the last; regrouping the product (associativity of the extended reals'
  multiplication) gives `Cert.Outer.outer3` of the three padded arrays.
-/
import proofs.«181002_j67920612819047_1_alg».proof.Proof.Gen.ReferenceIdeal.Read
import proofs.«181002_j67920612819047_1_alg».proof.Proof.OuterSpec

noncomputable section

namespace Cert.ReferenceIdeal.RefOuter

open Cert.ReferenceIdeal Cert.ReferenceIdeal.Gen Cert.ReferenceIdeal.Read Cert.Outer
open Idealize.ShloMosaic Idealize.ShloMosaic.ValueIdx

/-- Where the flattened entry `(b, t, q)` reads the padded `v`: at `(b, t, q / 1089)`. -/
theorem v_index (b : Fin 64) (t : Fin 50) (q : Fin 35937) :
    idx_main_v6 (idx_main_v8 (idx_main_v12 (idx_main_v15 (ix3 b t q)))) = ix3 b t (hi q) := by
  have hb := b.isLt; have ht := t.isLt; have hq := q.isLt
  funext a; apply Fin.ext
  match a with
  | ⟨0, _⟩ => show ((b.val * 50 + t.val) * 35937 + q.val) / 1796850 = b.val; omega
  | ⟨1, _⟩ => show ((b.val * 50 + t.val) * 35937 + q.val) / 35937 % 50 = t.val; omega
  | ⟨2, _⟩ => show ((b.val * 50 + t.val) * 35937 + q.val) / 1089 % 33 = q.val / 1089; omega

/-- Where it reads the padded `a`: at `(b, t, q / 33 % 33)`. -/
theorem a_index (b : Fin 64) (t : Fin 50) (q : Fin 35937) :
    idx_main_v7 (idx_main_v9 (idx_main_v12 (idx_main_v15 (ix3 b t q)))) = ix3 b t (mid q) := by
  have hb := b.isLt; have ht := t.isLt; have hq := q.isLt
  funext a; apply Fin.ext
  match a with
  | ⟨0, _⟩ => show ((b.val * 50 + t.val) * 35937 + q.val) / 1796850 = b.val; omega
  | ⟨1, _⟩ => show ((b.val * 50 + t.val) * 35937 + q.val) / 35937 % 50 = t.val; omega
  | ⟨2, _⟩ => show ((b.val * 50 + t.val) * 35937 + q.val) / 33 % 33 = q.val / 33 % 33; omega

/-- Where it reads the padded `d`: at `(b, t, q % 33)`. -/
theorem d_index (b : Fin 64) (t : Fin 50) (q : Fin 35937) :
    idx_main_v11 (idx_main_v13 (idx_main_v15 (ix3 b t q))) = ix3 b t (lo q) := by
  have hb := b.isLt; have ht := t.isLt; have hq := q.isLt
  funext a; apply Fin.ext
  match a with
  | ⟨0, _⟩ => show ((b.val * 50 + t.val) * 35937 + q.val) / 1796850 = b.val; omega
  | ⟨1, _⟩ => show ((b.val * 50 + t.val) * 35937 + q.val) / 35937 % 50 = t.val; omega
  | ⟨2, _⟩ => show ((b.val * 50 + t.val) * 35937 + q.val) % 33 = q.val % 33; omega

/-- THE REFERENCE'S RESULT is the triple outer product of the three padded arrays. -/
theorem result_eq (x0 x1 x2 : (⟨S64x50x32, .f32⟩ : BufTy).Contents (Elt Ideal)) :
    val_main_v15 (F := Ideal) x0 x1 x2
      = outer3 (val_main_v1 (F := Ideal) x0) (val_main_v3 (F := Ideal) x1) (val_main_v5 (F := Ideal) x2) := by
  funext i
  obtain ⟨b, t, q, rfl⟩ : ∃ (b : Fin 64) (t : Fin 50) (q : Fin 35937), i = ix3 b t q := ⟨i 0, i 1, i 2, eq_ix3 i⟩
  rw [val_main_v15_apply, val_main_v14_apply, val_main_v12_apply, val_main_v10_apply, val_main_v8_apply,
    val_main_v6_apply, val_main_v9_apply, val_main_v7_apply, val_main_v13_apply, val_main_v11_apply,
    v_index, a_index, d_index]
  exact mul_assoc _ _ _

end Cert.ReferenceIdeal.RefOuter

end
-- ==== Proof.lean ====
/-
  The trilinear fusion kernel against its reference.

  Both programs pad each of the three inputs `x_vel`, `x_acc`, `x_2d : [64, 50, 32]` with a leading column of ones
  (`v`, `a`, `d : [64, 50, 33]`) and return the `[64, 50, 35937]` array whose entry `(b, t, 1089·i + 33·j + k)` is the
  product `v[b,t,i] · a[b,t,j] · d[b,t,k]`.

  The reference multiplies `(v · a) · d` on a rank-5 array and flattens its last three axes
  (`Cert.ReferenceIdeal.RefOuter.result_eq`, over the generated reads of its run). The kernel merges the axes
  `(b, t)` into 3200 rows; a grid point takes 128 rows, forms `a ⊗ d` flattened to 1089 columns and stores, for each
  of the 33 columns `i` of `v`, the tile `v[:, i] · (a ⊗ d)` at column offset `1089·i` (`Cert.KernelIdeal.Block.out_block`:
  33 tiles of one function); the 25 blocks tile the array (`Cert.KernelIdeal.Flush.final`) and the program splits the row
  axis back (`Cert.KernelIdeal.KernelOuter.run`). So the kernel groups the product `v · (a · d)`.

  The two groupings agree because multiplication of extended reals is associative (`Cert.Outer.cell_assoc`), also at
  infinite entries and at `0 · ∞ = 0`: the proof never uses that the inputs are finite. Both sides are stated over the
  same function `Cert.Outer.outer3` of the padded arrays, and the padding itself is the same term in both programs.
  The ideal pass rewrote nothing, so `preserves` is `True`; the kernel's frames are the generated ones, the reference's
  frame is its generated run with the result dropped.
-/
import proofs.«181002_j67920612819047_1_alg».proof.Defs
import proofs.«181002_j67920612819047_1_alg».proof.Proof.Gen.Kernel
import proofs.«181002_j67920612819047_1_alg».proof.Proof.Gen.Kernel.Skeleton
import proofs.«181002_j67920612819047_1_alg».proof.Proof.Gen.Kernel.Launch
import proofs.«181002_j67920612819047_1_alg».proof.Proof.Gen.Kernel.Points
import proofs.«181002_j67920612819047_1_alg».proof.Proof.Gen.Kernel.Frame
import proofs.«181002_j67920612819047_1_alg».proof.Proof.Gen.KernelIdeal
import proofs.«181002_j67920612819047_1_alg».proof.Proof.Gen.KernelIdeal.Skeleton
import proofs.«181002_j67920612819047_1_alg».proof.Proof.Gen.KernelIdeal.Launch
import proofs.«181002_j67920612819047_1_alg».proof.Proof.Gen.KernelIdeal.Points
import proofs.«181002_j67920612819047_1_alg».proof.Proof.Gen.KernelIdeal.Frame
import proofs.«181002_j67920612819047_1_alg».proof.Proof.Gen.ReferenceIdeal
import proofs.«181002_j67920612819047_1_alg».proof.Proof.Gen.Pre_finite_inputs
import proofs.«181002_j67920612819047_1_alg».proof.Proof.Gen.ReferenceIdeal.Run
import proofs.«181002_j67920612819047_1_alg».proof.Proof.Gen.ReferenceIdeal.Read
import proofs.«181002_j67920612819047_1_alg».proof.Proof.KernelOuter
import proofs.«181002_j67920612819047_1_alg».proof.Proof.RefOuter
import Idealize.ShloMosaic.Adequacy
import Idealize.ShloMosaic.Init

noncomputable section

namespace Cert.Proof

open Idealize.ShloMosaic Idealize.SL.Sem

/-- Both idealized programs, run from memories that agree on the inputs, end with the triple outer product of the
    padded inputs: the kernel's run states it as `outer3` of its padded arrays, the reference's run reads back to
    `outer3` of its own, and the two paddings are one term. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KernelOuter.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefOuter.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
